-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x960000 : Shape := ⟨3, ![16, 1, 960000]⟩
abbrev S_ : Shape := ⟨0, ![]⟩

class Facts : Prop where
  bcast_S_S16x1x960000 : S_.BroadcastsInDim S16x1x960000 (![] : Fin 0 → Fin S16x1x960000.rank)
  reducesTo_S16x1x960000_S_d0_1_2 : S16x1x960000.ReducesTo [0, 1, 2] S_
  h_S_ : 0 < S_.numel

variable [Facts]

def fn {F : FTy → Type} [FloatOps F] (main_arg0 : FVec F S16x1x960000 .f32) : IVec S_ 1 :=
  let main_v0 : FVec F S16x1x960000 .f32 := Host.absf main_arg0
  let main_cst : FVec F S_ .f32 := constant S_ .f32 0x7F800000#32
  let main_v1 : FVec F S16x1x960000 .f32 := broadcastInDim S16x1x960000 ![] bcast_S_S16x1x960000 main_cst
  let main_v2 : IVec S16x1x960000 1 := cmpf .olt main_v0 main_v1
  let main_c : IVec S_ 1 := constantI S_ 1 1#1
  let main_v3 : IVec S_ 1 := (fun x v => Host.reduce IntOp.andi x v reducesTo_S16x1x960000_S_d0_1_2 h_S_) main_v2 main_c
  main_v3
-- ==== Kernel.lean ====
abbrev S16x1x960000 : Shape := ⟨3, ![16, 1, 960000]⟩
abbrev S16x6000x160 : Shape := ⟨3, ![16, 6000, 160]⟩
abbrev S16x400x5998 : Shape := ⟨3, ![16, 400, 5998]⟩
abbrev S1x6000x160 : Shape := ⟨3, ![1, 6000, 160]⟩
abbrev S1x400x5998 : Shape := ⟨3, ![1, 400, 5998]⟩
abbrev S1x5998x160 : Shape := ⟨3, ![1, 5998, 160]⟩
abbrev S5998x160 : Shape := ⟨2, ![5998, 160]⟩
abbrev S160x5998 : Shape := ⟨2, ![160, 5998]⟩
abbrev S1x160x5998 : Shape := ⟨3, ![1, 160, 5998]⟩
abbrev S1x5998x80 : Shape := ⟨3, ![1, 5998, 80]⟩
abbrev S5998x80 : Shape := ⟨2, ![5998, 80]⟩
abbrev S80x5998 : Shape := ⟨2, ![80, 5998]⟩
abbrev S1x80x5998 : Shape := ⟨3, ![1, 80, 5998]⟩

abbrev nBuf : Space → Nat
  | .hbm => 3
  | .vmem => 4
  | .smem => 0
  | _ => 0

abbrev bufTy : (tb : Table) → Fin (tcTables nBuf tb) → BufTy
  | .hbm, ⟨0, _⟩ => ⟨S16x1x960000, .f32⟩
  | .hbm, ⟨1, _⟩ => ⟨S16x6000x160, .f32⟩
  | .hbm, ⟨2, _⟩ => ⟨S16x400x5998, .f32⟩
  | .local _ .vmem, ⟨0, _⟩ => ⟨S1x6000x160, .f32⟩
  | .local _ .vmem, ⟨1, _⟩ => ⟨S1x6000x160, .f32⟩
  | .local _ .vmem, ⟨2, _⟩ => ⟨S1x400x5998, .f32⟩
  | .local _ .vmem, ⟨3, _⟩ => ⟨S1x400x5998, .f32⟩
  | _, _ => ⟨S16x1x960000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x400x5998 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x1x960000_S16x6000x160 : S16x1x960000.ShapeCasts S16x6000x160
  inb_S1x6000x160_S1x5998x160_0_0_0 : ∀ a, (![0, 0, 0] : Fin 3 → Nat) a + S1x5998x160.size a ≤ S1x6000x160.size a
  h_S1x5998x160 : 0 < S1x5998x160.numel
  shapeCasts_S1x5998x160_S5998x160 : S1x5998x160.ShapeCasts S5998x160
  transposes_S5998x160_p1_0_S160x5998 : S5998x160.Transposes [1, 0] S160x5998
  inb_S1x400x5998_S1x160x5998_0_0_0 : ∀ a, (![0, 0, 0] : Fin 3 → Nat) a + S1x160x5998.size a ≤ S1x400x5998.size a
  h_S1x160x5998 : 0 < S1x160x5998.numel
  shapeCasts_S1x160x5998_S160x5998 : S1x160x5998.ShapeCasts S160x5998
  shapeCasts_S160x5998_S1x160x5998 : S160x5998.ShapeCasts S1x160x5998
  inb_S1x6000x160_S1x5998x160_0_1_0 : ∀ a, (![0, 1, 0] : Fin 3 → Nat) a + S1x5998x160.size a ≤ S1x6000x160.size a
  inb_S1x400x5998_S1x160x5998_0_160_0 : ∀ a, (![0, 160, 0] : Fin 3 → Nat) a + S1x160x5998.size a ≤ S1x400x5998.size a
  inb_S1x6000x160_S1x5998x80_0_2_0 : ∀ a, (![0, 2, 0] : Fin 3 → Nat) a + S1x5998x80.size a ≤ S1x6000x160.size a
  h_S1x5998x80 : 0 < S1x5998x80.numel
  shapeCasts_S1x5998x80_S5998x80 : S1x5998x80.ShapeCasts S5998x80
  transposes_S5998x80_p1_0_S80x5998 : S5998x80.Transposes [1, 0] S80x5998
  inb_S1x400x5998_S1x80x5998_0_320_0 : ∀ a, (![0, 320, 0] : Fin 3 → Nat) a + S1x80x5998.size a ≤ S1x400x5998.size a
  h_S1x80x5998 : 0 < S1x80x5998.numel
  shapeCasts_S1x80x5998_S80x5998 : S1x80x5998.ShapeCasts S80x5998
  shapeCasts_S80x5998_S1x80x5998 : S80x5998.ShapeCasts S1x80x5998
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6000x160.size a ≤ S16x6000x160.size a
  hwx0_0 : ∀ i : grid0.Coords, EltTy.bits .f32 = 32 ∨ (Rect.block (s := S16x6000x160) S1x6000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x5998.size a ≤ S16x400x5998.size a
  hwx0_1 : ∀ i : grid0.Coords, EltTy.bits .f32 = 32 ∨ (Rect.block (s := S16x400x5998) S1x400x5998.size (cc0_transform_1 i) (hinb0_1 i)).WholeWords (EltTy.packing .f32)

variable [Facts₀]

abbrev win0_0 : Pipeline.Window sig grid0 :=
  Pipeline.Window.ofSpec (Memref.whole main_v0) S1x6000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x400x5998.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1x960000 : Shape := ⟨3, ![16, 1, 960000]⟩
abbrev S5998 : Shape := ⟨1, ![5998]⟩
abbrev S1x5998 : Shape := ⟨2, ![1, 5998]⟩
abbrev S_ : Shape := ⟨0, ![]⟩
abbrev S400 : Shape := ⟨1, ![400]⟩
abbrev S400x1 : Shape := ⟨2, ![400, 1]⟩
abbrev S400x5998 : Shape := ⟨2, ![400, 5998]⟩
abbrev S400x5998x1 : Shape := ⟨3, ![400, 5998, 1]⟩
abbrev S400x5998x2 : Shape := ⟨3, ![400, 5998, 2]⟩
abbrev S16x400x5998 : Shape := ⟨3, ![16, 400, 5998]⟩

abbrev nBuf : Space → Nat
  | .hbm => 25
  | .vmem => 0
  | .smem => 0
  | _ => 0

abbrev bufTy : (tb : Table) → Fin (tcTables nBuf tb) → BufTy
  | .hbm, ⟨0, _⟩ => ⟨S16x1x960000, .f32⟩
  | .hbm, ⟨1, _⟩ => ⟨S5998, .i32⟩
  | .hbm, ⟨2, _⟩ => ⟨S1x5998, .i32⟩
  | .hbm, ⟨3, _⟩ => ⟨S_, .i32⟩
  | .hbm, ⟨4, _⟩ => ⟨S1x5998, .i32⟩
  | .hbm, ⟨5, _⟩ => ⟨S1x5998, .i32⟩
  | .hbm, ⟨6, _⟩ => ⟨S400, .i32⟩
  | .hbm, ⟨7, _⟩ => ⟨S400x1, .i32⟩
  | .hbm, ⟨8, _⟩ => ⟨S400x5998, .i32⟩
  | .hbm, ⟨9, _⟩ => ⟨S400x5998, .i32⟩
  | .hbm, ⟨10, _⟩ => ⟨S400x5998, .i32⟩
  | .hbm, ⟨11, _⟩ => ⟨S_, .i32⟩
  | .hbm, ⟨12, _⟩ => ⟨S400x5998, .i32⟩
  | .hbm, ⟨13, _⟩ => ⟨S400x5998, .i1⟩
  | .hbm, ⟨14, _⟩ => ⟨S_, .i32⟩
  | .hbm, ⟨15, _⟩ => ⟨S400x5998, .i32⟩
  | .hbm, ⟨16, _⟩ => ⟨S400x5998, .i32⟩
  | .hbm, ⟨17, _⟩ => ⟨S400x5998, .i32⟩
  | .hbm, ⟨18, _⟩ => ⟨S_, .i32⟩
  | .hbm, ⟨19, _⟩ => ⟨S400x5998, .i32⟩
  | .hbm, ⟨20, _⟩ => ⟨S400x5998, .i32⟩
  | .hbm, ⟨21, _⟩ => ⟨S400x5998x1, .i32⟩
  | .hbm, ⟨22, _⟩ => ⟨S400x5998x1, .i32⟩
  | .hbm, ⟨23, _⟩ => ⟨S400x5998x2, .i32⟩
  | .hbm, ⟨24, _⟩ => ⟨S16x400x5998, .f32⟩
  | _, _ => ⟨S16x1x960000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  bcast_S5998_S1x5998_1 : S5998.BroadcastsInDim S1x5998 (![1] : Fin 1 → Fin S1x5998.rank)
  bcast_S_S1x5998 : S_.BroadcastsInDim S1x5998 (![] : Fin 0 → Fin S1x5998.rank)
  bcast_S400_S400x1_0 : S400.BroadcastsInDim S400x1 (![0] : Fin 1 → Fin S400x1.rank)
  bcast_S1x5998_S400x5998_0_1 : S1x5998.BroadcastsInDim S400x5998 (![0, 1] : Fin 2 → Fin S400x5998.rank)
  bcast_S400x1_S400x5998_0_1 : S400x1.BroadcastsInDim S400x5998 (![0, 1] : Fin 2 → Fin S400x5998.rank)
  bcast_S_S400x5998 : S_.BroadcastsInDim S400x5998 (![] : Fin 0 → Fin S400x5998.rank)
  bcast_S400x5998_S400x5998x1_0_1 : S400x5998.BroadcastsInDim S400x5998x1 (![0, 1] : Fin 2 → Fin S400x5998x1.rank)
  concatenates_S400x5998x1_S400x5998x1_S400x5998x2_d2 : Shape.Concatenates [S400x5998x1, S400x5998x1] S400x5998x2 2
  gather_S16x1x960000_S400x5998x2_S16x400x5998_0_12_n_n_12_2_1611_wf : GatherDims.WF S16x1x960000 S400x5998x2 S16x400x5998 [0] [1, 2] [] [1, 2] [] 2 ![16, 1, 1]

variable [Facts₀]

def gather_S16x1x960000_S400x5998x2_S16x400x5998_0_12_n_n_12_2_1611 : GatherDims S16x1x960000 S400x5998x2 S16x400x5998 where
  offsetDims := [0]
  collapsedSliceDims := [1, 2]
  operandBatchingDims := []
  startIndicesBatchingDims := []
  startIndexMap := [1, 2]
  indexVectorDim := 2
  sliceSizes := ![16, 1, 1]
  wf := gather_S16x1x960000_S400x5998x2_S16x400x5998_0_12_n_n_12_2_1611_wf

class Facts : Prop extends Facts₀ where

variable [Facts]
-- ==== Proof.Framing.lean ====
/-
  Framing a signal: the one function both programs compute.

  A signal of 960000 samples per utterance is cut into 5998 overlapping frames of 400 taps, successive frames
  160 samples apart: entry (b, i, t) of the result is sample t * 160 + i of utterance b. The last frame's last
  tap is sample 5997 * 160 + 399 = 959919, inside the signal, so every entry is a sample and nothing is clamped.
-/
import Idealize.ShloMosaic.PureOps.Ideal
import Idealize.ShloMosaic.Lib.ValueIdx

noncomputable section

namespace Cert.Framing

open Idealize.ShloMosaic Idealize.ShloMosaic.ValueIdx

/-- Tap `i` of frame `t` is a sample of the signal. -/
theorem sample_lt (i : Fin 400) (t : Fin 5998) : t.val * 160 + i.val < 960000 := by
  have := i.isLt; have := t.isLt; omega

/-- The sample tap `i` of frame `t` reads. -/
abbrev sample (i : Fin 400) (t : Fin 5998) : Fin 960000 := ⟨t.val * 160 + i.val, sample_lt i t⟩

/-- The framed signal: entry (b, i, t) is sample `t * 160 + i` of utterance `b`. -/
def frames {α : Type} (x : (⟨3, ![16, 1, 960000]⟩ : Shape).Idx → α) : (⟨3, ![16, 400, 5998]⟩ : Shape).Idx → α :=
  fun j => x (ix3 (j 0 : Fin 16) (0 : Fin 1) (sample (j 1 : Fin 400) (j 2 : Fin 5998)))

theorem frames_apply {α : Type} (x : (⟨3, ![16, 1, 960000]⟩ : Shape).Idx → α) (b : Fin 16) (i : Fin 400) (t : Fin 5998) :
    frames x (ix3 b i t) = x (ix3 b (0 : Fin 1) (sample i t)) := rfl

end Cert.Framing

end
-- ==== Proof.KernelBlock.lean ====
/-
  What one grid point's body leaves in its output block.

  The body sees one utterance as 6000 chunks of 160 samples (a [1, 6000, 160] block) and fills a [1, 400, 5998]
  block of taps by frames with three transposed slabs: taps 0..159 from chunks t, taps 160..319 from chunks
  t + 1, taps 320..399 from the first 80 samples of chunks t + 2. In one formula: entry (0, i, t) of the output
  block is entry (0, t + i / 160, i % 160) of the input block. The three slabs are disjoint and fill the block,
  so what was in the block before (which the body also loads, and ignores) does not matter.
-/
import proofs.«100424_j5695126634849_1_alg».proof.Proof.Gen.KernelIdeal.Frame
import Idealize.ShloMosaic.Lib.Pipeline.Value
import Idealize.ShloMosaic.Lib.ValueIdx

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- Where entry (0, i, t) of the output block reads the input block: chunk `t + i / 160`, sample `i % 160` of it. -/
def src (y : S1x400x5998.Idx) : S1x6000x160.Idx := fun a => match a with
  | ⟨0, _⟩ => ⟨0, Nat.one_pos⟩
  | ⟨1, _⟩ => ⟨(y 2).val + (y 1).val / 160, by
      have h1 : (y 1).val < 400 := (y 1).isLt
      have h2 : (y 2).val < 5998 := (y 2).isLt
      show (y 2).val + (y 1).val / 160 < 6000
      omega⟩
  | ⟨2, _⟩ => ⟨(y 1).val % 160, Nat.mod_lt _ (by decide)⟩

/-- A full slab: the [1, 5998, 160] piece of the input, with its unit axis dropped, transposed, and the unit
    axis put back, reads at (0, r, t) the piece at (0, t, r). -/
theorem slab160_apply (v : Vec F S1x5998x160 .f32) (x : S1x160x5998.Idx) :
    shapeCast S1x160x5998 (transpose S160x5998 [1, 0] (shapeCast S5998x160 v Facts₀.shapeCasts_S1x5998x160_S5998x160)
        Facts₀.transposes_S5998x160_p1_0_S160x5998) Facts₀.shapeCasts_S160x5998_S1x160x5998 x
      = v (fun a => match a with
        | ⟨0, _⟩ => ⟨0, Nat.one_pos⟩ | ⟨1, _⟩ => ⟨(x 2).val, (x 2).isLt⟩ | ⟨2, _⟩ => ⟨(x 1).val, (x 1).isLt⟩) := by
  have h0 : (x 0).val < 1 := (x 0).isLt
  have h1 : (x 1).val < 160 := (x 1).isLt
  have h2 : (x 2).val < 5998 := (x 2).isLt
  refine (shapeCast_apply _ _ x (fun a => match a with | ⟨0, _⟩ => ⟨(x 1).val, h1⟩ | ⟨1, _⟩ => ⟨(x 2).val, h2⟩)
    (by rw [Shape.rowMajor_val_two, Shape.rowMajor_val_three]
        show (x 1).val * 5998 + (x 2).val = ((x 0).val * 160 + (x 1).val) * 5998 + (x 2).val
        omega)).trans ?_
  refine (transpose_apply _ _ _ _ (fun a => match a with | ⟨0, _⟩ => ⟨(x 2).val, h2⟩ | ⟨1, _⟩ => ⟨(x 1).val, h1⟩)
    (fun b => match b with | ⟨0, _⟩ => rfl | ⟨1, _⟩ => rfl)).trans ?_
  exact shapeCast_apply _ _ _ _
    (by rw [Shape.rowMajor_val_two, Shape.rowMajor_val_three]
        show (0 * 5998 + (x 2).val) * 160 + (x 1).val = (x 2).val * 160 + (x 1).val
        omega)

/-- The half slab, the same three steps on a [1, 5998, 80] piece. -/
theorem slab80_apply (v : Vec F S1x5998x80 .f32) (x : S1x80x5998.Idx) :
    shapeCast S1x80x5998 (transpose S80x5998 [1, 0] (shapeCast S5998x80 v Facts₀.shapeCasts_S1x5998x80_S5998x80)
        Facts₀.transposes_S5998x80_p1_0_S80x5998) Facts₀.shapeCasts_S80x5998_S1x80x5998 x
      = v (fun a => match a with
        | ⟨0, _⟩ => ⟨0, Nat.one_pos⟩ | ⟨1, _⟩ => ⟨(x 2).val, (x 2).isLt⟩ | ⟨2, _⟩ => ⟨(x 1).val, (x 1).isLt⟩) := by
  have h0 : (x 0).val < 1 := (x 0).isLt
  have h1 : (x 1).val < 80 := (x 1).isLt
  have h2 : (x 2).val < 5998 := (x 2).isLt
  refine (shapeCast_apply _ _ x (fun a => match a with | ⟨0, _⟩ => ⟨(x 1).val, h1⟩ | ⟨1, _⟩ => ⟨(x 2).val, h2⟩)
    (by rw [Shape.rowMajor_val_two, Shape.rowMajor_val_three]
        show (x 1).val * 5998 + (x 2).val = ((x 0).val * 80 + (x 1).val) * 5998 + (x 2).val
        omega)).trans ?_
  refine (transpose_apply _ _ _ _ (fun a => match a with | ⟨0, _⟩ => ⟨(x 2).val, h2⟩ | ⟨1, _⟩ => ⟨(x 1).val, h1⟩)
    (fun b => match b with | ⟨0, _⟩ => rfl | ⟨1, _⟩ => rfl)).trans ?_
  exact shapeCast_apply _ _ _ _
    (by rw [Shape.rowMajor_val_two, Shape.rowMajor_val_three]
        show (0 * 5998 + (x 2).val) * 80 + (x 1).val = (x 2).val * 80 + (x 1).val
        omega)

/-- The three slabs the body stores, read at an entry. -/
theorem slab0_apply (v : Vec F S1x5998x160 .f32) (x : S1x160x5998.Idx) :
    k0_pay1 v x = v (fun a => match a with
        | ⟨0, _⟩ => ⟨0, Nat.one_pos⟩ | ⟨1, _⟩ => ⟨(x 2).val, (x 2).isLt⟩ | ⟨2, _⟩ => ⟨(x 1).val, (x 1).isLt⟩) :=
  slab160_apply v x
theorem slab1_apply (v : Vec F S1x5998x160 .f32) (x : S1x160x5998.Idx) :
    k0_pay2 v x = v (fun a => match a with
        | ⟨0, _⟩ => ⟨0, Nat.one_pos⟩ | ⟨1, _⟩ => ⟨(x 2).val, (x 2).isLt⟩ | ⟨2, _⟩ => ⟨(x 1).val, (x 1).isLt⟩) :=
  slab160_apply v x
theorem slab2_apply (v : Vec F S1x5998x80 .f32) (x : S1x80x5998.Idx) :
    k0_pay3 v x = v (fun a => match a with
        | ⟨0, _⟩ => ⟨0, Nat.one_pos⟩ | ⟨1, _⟩ => ⟨(x 2).val, (x 2).isLt⟩ | ⟨2, _⟩ => ⟨(x 1).val, (x 1).isLt⟩) :=
  slab80_apply v x

/-- THE OUTPUT BLOCK after the body, entry by entry: the input block at `src`. -/
theorem out_block_apply (c : Dev nD) (i : grid0.Coords) (arg1 : Memref sig .tc .vmem S1x6000x160 .f32) (harg1 : arg1.IsWhole)
    (arg2 : Memref sig .tc .vmem S1x400x5998 .f32) (harg2 : arg2.IsWhole) (x0 : Vec F S1x6000x160 .f32) (y : S1x400x5998.Idx) :
    out0_A_1 c i arg1 harg1 arg2 harg2 x0 y = x0 (src y) := by
  unfold out0_A_1
  rw [View.read_writes_junk_eq_canon]
  refine View.canon_apply_of_pieces (fun y => x0 (src y)) _ ?_ y (cover0_A_1 c i arg1 harg1 arg2 harg2 x0 y)
  unfold kernelRun0_A
  dsimp only
  sl_unfold_words
  simp only [View.readAt_eq_ld, harg1.read_unread]
  intro pc hpc x
  rcases List.mem_cons.mp hpc with rfl | hpc
  · -- taps 320..399: chunks t + 2, samples 0..79
    have h1 : (x 1).val < 80 := (x 1).isLt
    have h2 : (x 2).val < 5998 := (x 2).isLt
    refine (slab2_apply (F := F) (View.ld x0 (Rect.unit ![0, 2, 0] ![1, 5998, 80] Facts₀.inb_S1x6000x160_S1x5998x80_0_2_0)) x).trans ?_
    show x0 _ = x0 _
    congr 1; funext a
    match a with
    | ⟨0, _⟩ => rfl
    | ⟨1, _⟩ => apply Fin.ext; show 2 + 1 * (x 2).val = (0 + 1 * (x 2).val) + (320 + 1 * (x 1).val) / 160; omega
    | ⟨2, _⟩ => apply Fin.ext; show 0 + 1 * (x 1).val = (320 + 1 * (x 1).val) % 160; omega
  rcases List.mem_cons.mp hpc with rfl | hpc
  · -- taps 160..319: chunks t + 1
    have h1 : (x 1).val < 160 := (x 1).isLt
    have h2 : (x 2).val < 5998 := (x 2).isLt
    refine (slab1_apply (F := F) (View.ld x0 (Rect.unit ![0, 1, 0] ![1, 5998, 160] Facts₀.inb_S1x6000x160_S1x5998x160_0_1_0)) x).trans ?_
    show x0 _ = x0 _
    congr 1; funext a
    match a with
    | ⟨0, _⟩ => rfl
    | ⟨1, _⟩ => apply Fin.ext; show 1 + 1 * (x 2).val = (0 + 1 * (x 2).val) + (160 + 1 * (x 1).val) / 160; omega
    | ⟨2, _⟩ => apply Fin.ext; show 0 + 1 * (x 1).val = (160 + 1 * (x 1).val) % 160; omega
  rcases List.mem_cons.mp hpc with rfl | hpc
  · -- taps 0..159: chunks t
    have h1 : (x 1).val < 160 := (x 1).isLt
    have h2 : (x 2).val < 5998 := (x 2).isLt
    refine (slab0_apply (F := F) (View.ld x0 (Rect.unit ![0, 0, 0] ![1, 5998, 160] Facts₀.inb_S1x6000x160_S1x5998x160_0_0_0)) x).trans ?_
    show x0 _ = x0 _
    congr 1; funext a
    match a with
    | ⟨0, _⟩ => rfl
    | ⟨1, _⟩ => apply Fin.ext; show 0 + 1 * (x 2).val = (0 + 1 * (x 2).val) + (0 + 1 * (x 1).val) / 160; omega
    | ⟨2, _⟩ => apply Fin.ext; show 0 + 1 * (x 1).val = (0 + 1 * (x 1).val) % 160; omega
  nomatch hpc

end Cert.KernelIdeal.Block

end
-- ==== Proof.KernelFrames.lean ====
/-
  From blocks to the array: the kernel's result is the framed signal.

  Before the region the host re-lays each utterance's 960000 samples as 6000 chunks of 160: entry (b, k, r) of the
  chunked array is sample k * 160 + r of utterance b. Grid point b stages utterance b's chunks and writes back
  the [1, 400, 5998] block b of the result. By the body's formula, entry (i, t) of that block is chunk
  t + i / 160 at offset i % 160, that is sample (t + i / 160) * 160 + i % 160 = t * 160 + i: the framed signal's
  entry (b, i, t). The sixteen blocks tile the result, so the whole result array is the framed signal.
-/
import proofs.«100424_j5695126634849_1_alg».proof.Proof.Gen.KernelIdeal.Value
import proofs.«100424_j5695126634849_1_alg».proof.Proof.KernelBlock
import proofs.«100424_j5695126634849_1_alg».proof.Proof.Framing
import Idealize.ShloMosaic.Lib.Pipeline.Value
import Idealize.ShloMosaic.Lib.StableHlo.Run
import Idealize.ShloMosaic.Lib.ValueIdx

set_option maxRecDepth 16384

noncomputable section

namespace Cert.KernelIdeal.Frames

open Cert.KernelIdeal Cert.KernelIdeal.Gen Cert.KernelIdeal.Value Cert.KernelIdeal.Block Cert.Framing
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The chunked signal the region finds -/

/-- The one host operation before the region re-lays the signal in chunks. -/
theorem chunks_eq (c : Dev nD) :
    (V m c main_v0 : S16x6000x160.Idx → Elt F .f32)
      = shapeCast S16x6000x160 (m ((c : Thread nD τ).loc main_arg0)) Facts₀.shapeCasts_S16x1x960000_S16x6000x160 := by
  dsimp only [Gen.V, Gen.hostOps0]
  after_results
  rfl

/-- Entry (b, k, r) of the chunked signal is sample `k * 160 + r` of utterance `b`. -/
theorem chunks_apply (c : Dev nD) (j : S16x6000x160.Idx) (i : S16x1x960000.Idx)
    (h0 : (i 0).val = (j 0).val) (h2 : (i 2).val = (j 1).val * 160 + (j 2).val) :
    (V m c main_v0 : S16x6000x160.Idx → Elt F .f32) j = m ((c : Thread nD τ).loc main_arg0) i := by
  have hi1 : (i 1).val < 1 := (i 1).isLt
  rw [chunks_eq]
  exact shapeCast_apply _ _ j i (by
    rw [Shape.rowMajor_val_three, Shape.rowMajor_val_three]
    show ((i 0).val * 1 + (i 1).val) * 960000 + (i 2).val = ((j 0).val * 6000 + (j 1).val) * 160 + (j 2).val
    omega)

/-! ## What each grid point writes back -/

/-- The printed index maps, decided over the sixteen points: both windows sit at block (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT `t` WRITES BACK is block `t` of the framed signal. -/
theorem flushed_eq (c : Dev nD) (t : Fin cfg0.N) :
    (dats m 0 c).flushed 1 t
      = ((cfg0.win 1).blk t).view.read (Elt F) (frames (m ((c : Thread nD τ).loc main_arg0))) := by
  rw [flushed1_A]
  obtain ⟨e0, e1, e2, e3, e4, e5⟩ := idx_facts t
  funext y
  have hy0 : (y 0).val < 1 := (y 0).isLt
  have hy1 : (y 1).val < 400 := (y 1).isLt
  have hy2 : (y 2).val < 5998 := (y 2).isLt
  show out0_A_1 c (grid0.coords t) (ms0_0 t) (hs0_0 t) (ms0_1 t) (hs0_1 t) (iblk m c 0 t) y
    = frames (m ((c : Thread nD τ).loc main_arg0)) (((cfg0.win 1).blk t).view.emb y)
  refine (out_block_apply c (grid0.coords t) (ms0_0 t) (hs0_0 t) (ms0_1 t) (hs0_1 t) (iblk m c 0 t) y).trans ?_
  unfold frames
  show (V m c main_v0 : S16x6000x160.Idx → Elt F .f32) (((cfg0.win 0).blk t).view.emb (src y)) = _
  refine chunks_apply m c _ _ ?_ ?_
  · show win0_1.index t (0 : Fin 3) * 1 + 1 * (y 0).val = win0_0.index t (0 : Fin 3) * 1 + 1 * 0
    omega
  · show (win0_1.index t (2 : Fin 3) * 5998 + 1 * (y 2).val) * 160 + (win0_1.index t (1 : Fin 3) * 400 + 1 * (y 1).val)
      = (win0_0.index t (1 : Fin 3) * 6000 + 1 * ((y 2).val + (y 1).val / 160)) * 160
        + (win0_0.index t (2 : Fin 3) * 160 + 1 * ((y 1).val % 160))
    omega

/-! ## The sixteen blocks tile the result -/

/-- An index of the result is in point `t`'s block iff each coordinate is in the block's range on its axis. -/
theorem mem_blk (t : Fin cfg0.N) (i : S16x400x5998.Idx) :
    i ∈ ((cfg0.win 1).blk t).view.set ↔ ∀ a : Fin 3, win0_1.index t a * S1x400x5998.size a ≤ (i a).val
      ∧ (i a).val < win0_1.index t a * S1x400x5998.size a + S1x400x5998.size a := by
  show i ∈ ((View.whole main_v1).slice (win0_1.rect t)).set ↔ _
  rw [View.set_slice_whole, Rect.mem_set_unit]
  exact Iff.rfl

/-- Entry (b, i, t) is in the block of grid point `b`, and every point writes back. -/
theorem cover (i : S16x400x5998.Idx) :
    ∃ t : Fin cfg0.N, (cfg0.win 1).flush t = true ∧ i ∈ ((cfg0.win 1).blk t).view.set := by
  have h0 : (i 0).val < 16 := (i 0).isLt
  have h1 : (i 1).val < 400 := (i 1).isLt
  have h2 : (i 2).val < 5998 := (i 2).isLt
  have hN : (i 0).val < cfg0.N := by show (i 0).val < grid0.N; rw [N_0]; exact h0
  refine ⟨⟨(i 0).val, hN⟩, flush0_1 _, ?_⟩
  rw [mem_blk]
  obtain ⟨-, -, -, e3, e4, e5⟩ := idx_facts ⟨(i 0).val, hN⟩
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    rw [e3]; show (i 0).val * 1 ≤ (i 0).val ∧ (i 0).val < (i 0).val * 1 + 1; omega
  | ⟨1, _⟩ =>
    show win0_1.index ⟨(i 0).val, _⟩ (1 : Fin 3) * 400 ≤ (i 1).val ∧ (i 1).val < win0_1.index ⟨(i 0).val, _⟩ (1 : Fin 3) * 400 + 400
    rw [e4]; omega
  | ⟨2, _⟩ =>
    show win0_1.index ⟨(i 0).val, _⟩ (2 : Fin 3) * 5998 ≤ (i 2).val ∧ (i 2).val < win0_1.index ⟨(i 0).val, _⟩ (2 : Fin 3) * 5998 + 5998
    rw [e5]; omega

/-- THE RESULT ARRAY after the run is the framed signal. -/
theorem final (c : Dev nD) : (dats m 0 c).arrAt 1 cfg0.N = frames (m ((c : Thread nD τ).loc main_arg0)) :=
  (dats m 0 c).arrAt_eq_of_cover 1 (frames (m ((c : Thread nD τ).loc main_arg0))) (fun t _ => flushed_eq m c t) cover

/-- The kernel's run: the result array ends at the framed signal, the signal unchanged. -/
theorem run : θ_run defs (onTc (τ := τ) (main (F := F))) ⟨m, fun _ => 0, ρ⟩ fun r => ∀ c : Dev nD,
      r.2.mem ((c : Thread nD τ).loc main_v1) = frames (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Frames

end
-- ==== Proof.RefFrames.lean ====
/-
  The reference computes the framed signal.

  The reference builds, by integer arithmetic on iotas, the table of sample positions `t * 160 + i` (400 taps by
  5998 frames), wraps negative positions (there are none), pairs each position with a zero for the channel axis,
  and gathers. A gather clamps each start position into the operand; every position is at most
  5997 * 160 + 399 = 959919 < 960000, and the arithmetic stays far below 2^31, so nothing wraps and nothing is
  clamped: entry (b, i, t) of the result is sample `t * 160 + i` of utterance `b`.
-/
import proofs.«100424_j5695126634849_1_alg».proof.Proof.Gen.ReferenceIdeal.Read
import proofs.«100424_j5695126634849_1_alg».proof.Proof.Framing
import Idealize.ShloMosaic.Lib.Pipeline.Value
import Idealize.ShloMosaic.Lib.ValueIdx
import Idealize.ShloMosaic.Lib.StableHlo.Predicate

noncomputable section

namespace Cert.ReferenceIdeal.Frames

open Cert.ReferenceIdeal Cert.ReferenceIdeal.Gen Cert.ReferenceIdeal.Read
open Idealize.ShloMosaic Idealize.ShloMosaic.ValueIdx Cert.Framing

variable {F : FTy → Type} [FloatOps F]

/-- Frame number times the hop plus the tap, in 32-bit words: no wrap. -/
theorem position_word (i t : Nat) (hi : i < 400) (ht : t < 5998) :
    IntOp.addi (IntOp.muli (BitVec.ofNat 32 t) 160#32) (BitVec.ofNat 32 i) = BitVec.ofNat 32 (t * 160 + i) := by
  apply BitVec.eq_of_toNat_eq
  simp only [IntOp.addi, IntOp.muli, BitVec.toNat_add, BitVec.toNat_mul, BitVec.toNat_ofNat]
  omega

/-- The table of positions before the wrap of negatives: `t * 160 + i` at (i, t). -/
theorem position_apply (j : S400x5998.Idx) :
    val_main_v8 (F := F) j = BitVec.ofNat 32 ((j 1).val * 160 + (j 0).val) := by
  rw [val_main_v8_apply, val_main_v6_apply, val_main_v7_apply, val_main_v3_apply, val_main_v1_apply, val_main_v2_apply,
    val_main_v5_apply, val_main_v0_apply, val_main_v4_apply, val_main_c_apply]
  exact position_word (j 0).val (j 1).val (j 0).isLt (j 1).isLt

/-- No position is negative, so the wrap leaves the table as it is. -/
theorem wrapped_apply (j : S400x5998.Idx) :
    val_main_v13 (F := F) j = BitVec.ofNat 32 ((j 1).val * 160 + (j 0).val) := by
  have h0 : (j 0).val < 400 := (j 0).isLt
  have h1 : (j 1).val < 5998 := (j 1).isLt
  rw [val_main_v13_apply, val_main_v10_apply, position_apply, val_main_v9_apply, val_main_c_0_apply]
  have hx : (j 1).val * 160 + (j 0).val < 960000 := by omega
  have hlt : ¬ IntOp.cmpi .slt (BitVec.ofNat 32 ((j 1).val * 160 + (j 0).val)) 0#32 = 1#1 := by
    rw [StableHlo.Predicate.slt_iff_toNat (by rw [BitVec.toNat_ofNat, Nat.mod_eq_of_lt (by omega)]; omega) (by decide)]
    simp
  rw [eq_zero_of_ne_one hlt, select_zero]

/-- The start indices: the pair (0, position) at each (i, t); its second component is the position. -/
theorem start_position (k : S400x5998x2.Idx) (hk : (k 2).val = 1) :
    val_main_v18 (F := F) k = BitVec.ofNat 32 ((k 1).val * 160 + (k 0).val) := by
  unfold val_main_v18
  refine (concatenate_pair_apply_right (t := S400x5998x2) (s₁ := S400x5998x1) (s₂ := S400x5998x1) 2 _ _ _ k rfl rfl
    (fun a => match a with
      | ⟨0, _⟩ => ⟨(k 0).val, (k 0).isLt⟩ | ⟨1, _⟩ => ⟨(k 1).val, (k 1).isLt⟩ | ⟨2, _⟩ => ⟨0, Nat.one_pos⟩)
    (fun b hb => by
      match b with
      | ⟨0, _⟩ => rfl
      | ⟨1, _⟩ => rfl
      | ⟨2, _⟩ => exact absurd rfl hb)
    (by show 0 + 1 = (k 2).val; omega)).trans ?_
  rw [val_main_v17_apply, wrapped_apply]

/-! ## The gather

Its dimension numbers: the result's axis 0 is the operand's axis 0 carried whole (16 utterances); the operand's
axes 1 and 2 are collapsed and indexed by the start pair read at (i, t). -/

local notation "gd" => gather_S16x1x960000_S400x5998x2_S16x400x5998_0_12_n_n_12_2_1611

/-- The utterance axis is carried: the operand index's coordinate on axis 0 is the result's. -/
theorem operand_utterance {w : Nat} (idx : IVec S400x5998x2 w) (j : S16x400x5998.Idx) :
    ((gd).operandIdx j idx (0 : Fin 3)).val = (j 0).val := by
  show (gd).start j idx (0 : Fin 3) + (gd).batchCoord j (0 : Fin 3) + (gd).offCoord j (0 : Fin 3) = _
  rw [GatherDims.batchCoord_eq_zero _ _ _ List.not_mem_nil]
  unfold GatherDims.start GatherDims.offCoord
  rw [dif_neg (by decide), dif_pos (by decide)]
  simp only [Nat.zero_add]
  rfl

/-- The channel axis has one entry: whatever the start pair's first component, the clamp leaves 0. -/
theorem operand_channel {w : Nat} (idx : IVec S400x5998x2 w) (j : S16x400x5998.Idx) :
    ((gd).operandIdx j idx (1 : Fin 3)).val = 0 := by
  show (gd).start j idx (1 : Fin 3) + (gd).batchCoord j (1 : Fin 3) + (gd).offCoord j (1 : Fin 3) = _
  rw [GatherDims.batchCoord_eq_zero _ _ _ List.not_mem_nil,
    GatherDims.offCoord_eq_zero _ _ _ (fun h => ((GatherDims.mem_sKept _ _).mp h).1 (by decide))]
  unfold GatherDims.start
  rw [dif_pos (by decide)]
  exact Nat.min_eq_right (Nat.zero_le _)

/-- The time axis: the start pair's second component at (i, t), read signed and clamped into the signal. -/
theorem operand_sample {w : Nat} (idx : IVec S400x5998x2 w) (j : S16x400x5998.Idx) :
    ((gd).operandIdx j idx (2 : Fin 3)).val
      = min (idx (ix3 (j 1 : Fin 400) (j 2 : Fin 5998) (1 : Fin 2))).toInt.toNat (960000 - 1) := by
  show (gd).start j idx (2 : Fin 3) + (gd).batchCoord j (2 : Fin 3) + (gd).offCoord j (2 : Fin 3) = _
  rw [GatherDims.batchCoord_eq_zero _ _ _ List.not_mem_nil,
    GatherDims.offCoord_eq_zero _ _ _ (fun h => ((GatherDims.mem_sKept _ _).mp h).1 (by decide))]
  unfold GatherDims.start
  rw [dif_pos (by decide)]
  have hsi : (gd).siIdx j ⟨List.idxOf (2 : Fin 3) (gd).startIndexMap, List.idxOf_lt_length_iff.2 (by decide)⟩
      = ix3 (j 1 : Fin 400) (j 2 : Fin 5998) (1 : Fin 2) := by
    funext b; refine Fin.ext ?_
    match b with
    | ⟨0, _⟩ => rfl
    | ⟨1, _⟩ => rfl
    | ⟨2, _⟩ => rfl
  rw [hsi]
  rfl

/-- THE REFERENCE'S RESULT is the framed signal. -/
theorem result_eq (x : (⟨S16x1x960000, .f32⟩ : BufTy).Contents (Elt F)) :
    val_main_v19 (F := F) x = frames x := by
  funext j
  have h1 : (j 1).val < 400 := (j 1).isLt
  have h2 : (j 2).val < 5998 := (j 2).isLt
  have hx : (j 2).val * 160 + (j 1).val < 960000 := by omega
  unfold val_main_v19 Host.gather frames
  congr 1
  funext a
  refine Fin.ext ?_
  match a with
  | ⟨0, _⟩ => exact operand_utterance _ j
  | ⟨1, _⟩ => exact operand_channel _ j
  | ⟨2, _⟩ =>
    refine (operand_sample _ j).trans ?_
    rw [start_position _ rfl]
    show min (BitVec.ofNat 32 ((j 2).val * 160 + (j 1).val)).toInt.toNat (960000 - 1) = (j 2).val * 160 + (j 1).val
    rw [StableHlo.Predicate.toInt_ofNat_small _ (by omega), Int.toNat_natCast]
    exact Nat.min_eq_left (by omega)

end Cert.ReferenceIdeal.Frames

end
-- ==== Proof.lean ====
/-
  Framing a signal: the kernel against the gather.

  Both programs cut each of 16 utterances of 960000 samples into 5998 frames of 400 taps, 160 samples apart:
  result entry (b, i, t) is sample t * 160 + i of utterance b (Proof/Framing.lean).

  The reference tabulates the positions t * 160 + i in 32-bit integers and gathers; no position is negative or
  beyond the signal, so neither the wrap nor the gather's clamp changes one (Proof/RefFrames.lean, over the
  generated run of the reference read one operation at a time).

  The kernel re-lays an utterance as 6000 chunks of 160 samples and, writing a tap as i = 160 a + r with a in
  {0, 1, 2}, uses t * 160 + i = (t + a) * 160 + r: tap row i of the output is, transposed, the column r of the
  chunks a .. a + 5997. One grid point per utterance stores three such transposed slabs (Proof/KernelBlock.lean);
  the sixteen blocks tile the result (Proof/KernelFrames.lean, over the generated frame run with the result array
  named).

  Nothing is computed on the samples: they are only moved, so the two results agree entry by entry on every input,
  finite or not. The three frames are the generated ones; the idealization rewrote nothing, so there is nothing to
  preserve.
-/
import proofs.«100424_j5695126634849_1_alg».proof.Defs
import proofs.«100424_j5695126634849_1_alg».proof.Proof.Gen.Kernel
import proofs.«100424_j5695126634849_1_alg».proof.Proof.Gen.Kernel.Frame
import proofs.«100424_j5695126634849_1_alg».proof.Proof.Gen.KernelIdeal
import proofs.«100424_j5695126634849_1_alg».proof.Proof.Gen.KernelIdeal.Frame
import proofs.«100424_j5695126634849_1_alg».proof.Proof.Gen.KernelIdeal.Value
import proofs.«100424_j5695126634849_1_alg».proof.Proof.Gen.ReferenceIdeal
import proofs.«100424_j5695126634849_1_alg».proof.Proof.Gen.ReferenceIdeal.Run
import proofs.«100424_j5695126634849_1_alg».proof.Proof.Gen.ReferenceIdeal.Read
import proofs.«100424_j5695126634849_1_alg».proof.Proof.Gen.Pre_finite_inputs
import proofs.«100424_j5695126634849_1_alg».proof.Proof.Framing
import proofs.«100424_j5695126634849_1_alg».proof.Proof.KernelFrames
import proofs.«100424_j5695126634849_1_alg».proof.Proof.RefFrames
import Idealize.ShloMosaic.Adequacy
import Idealize.ShloMosaic.Init

noncomputable section

namespace Cert.Proof

open Idealize.ShloMosaic Idealize.ShloMosaic.TcCoe Idealize.SL.Sem

/-- The word-level kernel runs and leaves the signal as it was: the generated frame. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the framed signal (the blocks tiled), the reference's at its gather (the
    generated run), which is the framed signal of the same samples. -/
theorem algebraic : Cert.algebraic_KernelIdeal_ReferenceIdeal := by
  intro m ρ m' ρ' _ hagree
  refine ⟨fun c => Cert.Framing.frames (m ((c : Thread Cert.KernelIdeal.nD Cert.KernelIdeal.τ).loc Cert.KernelIdeal.main_arg0)),
    Cert.KernelIdeal.Frames.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Frames.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
